-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S400x10000 : Shape := ⟨2, ![400, 10000]⟩
abbrev S400x128 : Shape := ⟨2, ![400, 128]⟩

abbrev nBuf : Space → Nat
  | .hbm => 17
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128 : S_.BroadcastsInDim S128 (![] : Fin 0 → Fin S128.rank)
  shapeCasts_S128_S1x128 : S128.ShapeCasts S1x128
  shapeCasts_S1x128_S128 : S1x128.ShapeCasts S128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Layer.lean ====
/-
  The scalar algebra of one graph-convolution entry, and the layer as one function of its six argument arrays.

  Both programs divide by the same number, the square root of the single-precision literal nearest 1.00001; call it σ.
  One program forms ((a + b) − 0) / σ · γ + β, the other a · (γ / σ) + (b · (γ / σ) + β), where a is the aggregated
  entry, b the bias, γ and β the affine pair. On real numbers with σ ≠ 0 these agree by distributivity; on the extended
  reals distributivity fails at the infinities, so the law is stated for entries that are real numbers.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The normaliser σ: the square root of the single-precision literal `0x3F800054` (the float nearest 1.00001). -/
def nrm : EReal := Ideal.sqrt (Ideal.ofBits .f32 0x3F800054#32)

/-- The literal is the real number 8388692 / 8388608. -/
theorem lit_eq : Ideal.ofBits .f32 0x3F800054#32 = (((8388692 : ℝ) / 8388608 : ℝ) : EReal) := by
  simp [Ideal.ofBits, Ideal.ieee, -EReal.coe_mul]; norm_num

/-- σ is a real number other than zero. -/
theorem nrm_real : ∃ σ : ℝ, σ ≠ 0 ∧ nrm = (σ : EReal) := by
  refine ⟨Real.sqrt ((8388692 : ℝ) / 8388608), (Real.sqrt_pos.mpr (by norm_num)).ne', ?_⟩
  unfold nrm
  rw [lit_eq, Ideal.sqrt_coe, if_neg (by norm_num)]

/-- A finite sum of real numbers, taken in the extended reals, is the real sum. -/
theorem sum_coe {ι : Type*} (s : Finset ι) (f : ι → ℝ) : (∑ k ∈ s, (f k : EReal)) = ((∑ k ∈ s, f k : ℝ) : EReal) := by
  classical
  refine Finset.induction_on s (by simp) (fun a s ha ih => ?_)
  rw [Finset.sum_insert ha, Finset.sum_insert ha, ih, EReal.coe_add]

/-- The two spellings of one entry agree on real numbers. -/
theorem affine_law (a b g β σ : ℝ) (hσ : σ ≠ 0) :
    max (Ideal.div ((a : EReal) + b - 0) σ * g + β) 0
      = max ((a : EReal) * Ideal.div g σ + ((b : EReal) * Ideal.div g σ + β)) 0 := by
  rw [Ideal.div_coe hσ, Ideal.div_coe hσ, sub_zero]
  congr 1
  norm_cast
  ring

/-! ## The layer as one function -/

/-- The feature transform: entry (k, j) of x · W. -/
def support (x : FVec Ideal ⟨2, ![10000, 128]⟩ .f32) (W : FVec Ideal ⟨2, ![128, 128]⟩ .f32) (k : Fin 10000) (j : Fin 128) : EReal :=
  ∑ l : Fin 128, x (ix2 k l) * W (ix2 l j)

/-- The aggregation: entry (i, j) of adj · (x · W). -/
def agg (x : FVec Ideal ⟨2, ![10000, 128]⟩ .f32) (adj : FVec Ideal ⟨2, ![10000, 10000]⟩ .f32) (W : FVec Ideal ⟨2, ![128, 128]⟩ .f32)
    (i : Fin 10000) (j : Fin 128) : EReal :=
  ∑ k : Fin 10000, adj (ix2 i k) * support x W k j

/-- The per-column scale γ / σ. -/
def scale (g : FVec Ideal ⟨1, ![128]⟩ .f32) (j : Fin 128) : EReal := Ideal.div (g (ix1 j)) nrm

/-- The per-column shift b · (γ / σ) + β. -/
def shift (b g β : FVec Ideal ⟨1, ![128]⟩ .f32) (j : Fin 128) : EReal := b (ix1 j) * scale g j + β (ix1 j)

/-- The whole layer at (i, j): the aggregated entry scaled and shifted, then the maximum with zero. -/
def outAt (x : FVec Ideal ⟨2, ![10000, 128]⟩ .f32) (adj : FVec Ideal ⟨2, ![10000, 10000]⟩ .f32) (W : FVec Ideal ⟨2, ![128, 128]⟩ .f32)
    (b g β : FVec Ideal ⟨1, ![128]⟩ .f32) (i : Fin 10000) (j : Fin 128) : EReal :=
  max (agg x adj W i j * scale g j + shift b g β j) 0

/-- The result array. -/
def out (x : FVec Ideal ⟨2, ![10000, 128]⟩ .f32) (adj : FVec Ideal ⟨2, ![10000, 10000]⟩ .f32) (W : FVec Ideal ⟨2, ![128, 128]⟩ .f32)
    (b g β : FVec Ideal ⟨1, ![128]⟩ .f32) : FVec Ideal ⟨2, ![10000, 128]⟩ .f32 :=
  fun idx => outAt x adj W b g β (idx 0) (idx 1)

/-- The other spelling of entry (i, j): add the bias, subtract zero, divide by σ, scale by γ, add β. -/
def outAtRef (x : FVec Ideal ⟨2, ![10000, 128]⟩ .f32) (adj : FVec Ideal ⟨2, ![10000, 10000]⟩ .f32) (W : FVec Ideal ⟨2, ![128, 128]⟩ .f32)
    (b g β : FVec Ideal ⟨1, ![128]⟩ .f32) (i : Fin 10000) (j : Fin 128) : EReal :=
  max (Ideal.div (agg x adj W i j + b (ix1 j) - 0) nrm * g (ix1 j) + β (ix1 j)) 0

/-- On arrays of real numbers the two spellings agree. -/
theorem outAtRef_eq (x : FVec Ideal ⟨2, ![10000, 128]⟩ .f32) (adj : FVec Ideal ⟨2, ![10000, 10000]⟩ .f32) (W : FVec Ideal ⟨2, ![128, 128]⟩ .f32)
    (b g β : FVec Ideal ⟨1, ![128]⟩ .f32)
    (hx : ∀ i, ∃ r : ℝ, x i = (r : EReal)) (hadj : ∀ i, ∃ r : ℝ, adj i = (r : EReal)) (hW : ∀ i, ∃ r : ℝ, W i = (r : EReal))
    (hb : ∀ i, ∃ r : ℝ, b i = (r : EReal)) (hg : ∀ i, ∃ r : ℝ, g i = (r : EReal)) (hβ : ∀ i, ∃ r : ℝ, β i = (r : EReal))
    (i : Fin 10000) (j : Fin 128) :
    outAtRef x adj W b g β i j = outAt x adj W b g β i j := by
  choose xr hxr using hx
  choose ar har using hadj
  choose Wr hWr using hW
  obtain ⟨br, hbr⟩ := hb (ix1 j)
  obtain ⟨gr, hgr⟩ := hg (ix1 j)
  obtain ⟨βr, hβr⟩ := hβ (ix1 j)
  obtain ⟨σ, hσ, hn⟩ := nrm_real
  have hs : ∀ k, support x W k j = ((∑ l : Fin 128, xr (ix2 k l) * Wr (ix2 l j) : ℝ) : EReal) := fun k => by
    unfold support
    rw [← sum_coe]
    exact Finset.sum_congr rfl fun l _ => by rw [hxr, hWr, EReal.coe_mul]
  have ha : agg x adj W i j = ((∑ k : Fin 10000, ar (ix2 i k) * ∑ l : Fin 128, xr (ix2 k l) * Wr (ix2 l j) : ℝ) : EReal) := by
    unfold agg
    rw [← sum_coe]
    exact Finset.sum_congr rfl fun k _ => by rw [har, hs, EReal.coe_mul]
  unfold outAtRef outAt shift scale
  rw [ha, hbr, hgr, hβr, hn]
  exact affine_law _ _ _ _ _ hσ

end Cert.Gcn

end
-- ==== Proof.HostAt.lean ====
/-
  The host program's result at an index.

  The reference forms x · W, multiplies adj by it, adds the bias laid along every row, subtracts a zero array, divides
  by the square root of the literal nearest 1.00001 laid over the whole array, multiplies by γ laid along every row,
  adds β likewise and takes the maximum with a zero array. Read at (i, j) each of these is the scalar operation on the
  operands' entries, the bias, γ and β at column j, and the two products the sums over the contracted coordinate.
-/
import proofs.«132338_g53609781789055_cont_9to1_m_1331_6_alg».proof.Proof.Gen.ReferenceIdeal.Read
import proofs.«132338_g53609781789055_cont_9to1_m_1331_6_alg».proof.Proof.Layer

noncomputable section

namespace Cert.Gcn.Host

open Cert.ReferenceIdeal Cert.ReferenceIdeal.Read Idealize.ShloMosaic Idealize.ShloMosaic.ValueIdx

/-- A vector laid along axis 1 of a one-row matrix and that row down every row is read, at (i, j), at j. -/
theorem col_v3 (i : Fin 10000) (j : Fin 128) : idx_main_v2 (idx_main_v3 (ix2 i j)) = ix1 j :=
  funext fun a => Fin.ext (by match a with | ⟨0, _⟩ => rfl)
theorem col_v12 (i : Fin 10000) (j : Fin 128) : idx_main_v11 (idx_main_v12 (ix2 i j)) = ix1 j :=
  funext fun a => Fin.ext (by match a with | ⟨0, _⟩ => rfl)
theorem col_v15 (i : Fin 10000) (j : Fin 128) : idx_main_v14 (idx_main_v15 (ix2 i j)) = ix1 j :=
  funext fun a => Fin.ext (by match a with | ⟨0, _⟩ => rfl)

/-- The aggregation reads adj at (i, k) and the transform at (k, j). -/
theorem agg_lhs (i : Fin 10000) (j : Fin 128) (k : Fin 10000) : lidx_main_v1 (ix2 i j) k = ix2 i k :=
  funext fun a => Fin.ext (by match a with | ⟨0, _⟩ => rfl | ⟨1, _⟩ => rfl)
theorem agg_rhs (i : Fin 10000) (j : Fin 128) (k : Fin 10000) : ridx_main_v1 (ix2 i j) k = ix2 k j :=
  funext fun a => Fin.ext (by match a with | ⟨0, _⟩ => rfl | ⟨1, _⟩ => rfl)
/-- The transform reads x at (k, l) and W at (l, j). -/
theorem sup_lhs (k : Fin 10000) (j : Fin 128) (l : Fin 128) : lidx_main_v0 (ix2 k j) l = ix2 k l :=
  funext fun a => Fin.ext (by match a with | ⟨0, _⟩ => rfl | ⟨1, _⟩ => rfl)
theorem sup_rhs (k : Fin 10000) (j : Fin 128) (l : Fin 128) : ridx_main_v0 (ix2 k j) l = ix2 l j :=
  funext fun a => Fin.ext (by match a with | ⟨0, _⟩ => rfl | ⟨1, _⟩ => rfl)

/-- The reference's result at (i, j) is the layer's entry in the reference's spelling. -/
theorem result_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 x4 x5 : (⟨S128, .f32⟩ : BufTy).Contents (Elt Ideal))
    (i : Fin 10000) (j : Fin 128) :
    val_main_v18 (F := Ideal) x0 x1 x2 x3 x4 x5 (ix2 i j) = Cert.Gcn.outAtRef x0 x1 x2 x3 x4 x5 i j := by
  rw [val_main_v18_apply, val_main_v17_apply, val_main_cst_1_apply, val_main_v16_apply, val_main_v15_apply, val_main_v14_apply,
    val_main_v13_apply, val_main_v12_apply, val_main_v11_apply, val_main_v10_apply, val_main_v9_apply, val_main_v8_apply,
    val_main_v7_apply, val_main_cst_0_apply, val_main_v6_apply, val_main_v5_apply, val_main_cst_apply, val_main_v4_apply,
    val_main_v3_apply, val_main_v2_apply, val_main_v1_apply]
  simp only [val_main_v0_apply, col_v3, col_v12, col_v15, agg_lhs, agg_rhs, sup_lhs, sup_rhs, Ideal.maximumf_def, Ideal.addf_def,
    Ideal.mulf_def, Ideal.hostDivf_def, Ideal.subf_def, Ideal.ofBits_def, Ideal.ofBits_zero_f32, Ideal.hostUnary_sqrt_def]
  rfl

end Cert.Gcn.Host

end
-- ==== Proof.Finite.lean ====
/-
  From the precondition to real numbers.

  The precondition says, of each of the six argument arrays, that every entry's absolute value is below +∞, the six
  tests joined by `and`. On the extended reals |x| = max x (−x) is below +∞ exactly when x is neither infinity, that
  is, when x is a real number. So under the precondition every entry of every argument is a real number.
-/
import proofs.«132338_g53609781789055_cont_9to1_m_1331_6_alg».proof.Pre_finite_inputs
import Idealize.ShloMosaic.Lib.ReduceAll
import Idealize.ShloMosaic.Lib.Pipeline.Value
import Idealize.ShloMosaic.Lib.ValueIdx
import Idealize.ShloMosaic.PureOps.Ideal
import Idealize.ShloMosaic.PureOps.Ideal.Laws

noncomputable section

namespace Cert.Gcn.Finite

open Idealize.ShloMosaic Idealize.ShloMosaic.ValueIdx

/-- The single-precision word `0x7F800000` is +∞. -/
theorem inf_word : Ideal.ofBits .f32 0x7F800000#32 = ⊤ := by simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | top => simp at hlt
  | coe r => exact ⟨r, rfl⟩

/-- The scalar shape has one index. -/
instance : Subsingleton (⟨0, ![]⟩ : Shape).Idx := ⟨fun a b => funext fun d => d.elim0⟩

/-- One array's test: if the conjunction over all entries of "|x| < +∞" is true, every entry is a real number. -/
theorem entries_real {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : ∃ r : ℝ, x i = (r : EReal) := by
  have h1 := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  apply real_of_abs_lt_top
  rw [← hb']
  exact h1

variable [Cert.Pre_finite_inputs.Facts]

open Cert.Pre_finite_inputs in
/-- Under the precondition every entry of each of the six arguments is a real number. -/
theorem reals_of_pre (x0 : FVec Ideal S10000x128 .f32) (x1 : FVec Ideal S10000x10000 .f32) (x2 : FVec Ideal S128x128 .f32)
    (x3 x4 x5 : FVec Ideal S128 .f32) (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h0 := congrFun h ix0
  dsimp only [fn, fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨entries_real x0 _ _ _ e0, entries_real x1 _ _ _ e1, entries_real x2 _ _ _ e2, entries_real x3 _ _ _ e3,
    entries_real x4 _ _ _ e4, entries_real x5 _ _ _ e5⟩

end Cert.Gcn.Finite

end
-- ==== Proof.Pieces.lean ====
/-
  What one grid point leaves behind, as values.

  At the first grid point the body computes the feature transform x · W, narrows it to the scratch's format and stores
  it whole into the scratch; at every point it then reads the scratch back whole, multiplies the point's block of adj
  by it, scales, shifts, takes the maximum with zero and stores the block of the output whole. So the scratch after
  the first point is the transform of the two resident input blocks, the output block at the first point is the
  epilogue applied to that same transform, and at any later point it is the epilogue applied to whatever the scratch
  held when the point began. Each statement holds for any float instance.
-/
import proofs.«132338_g53609781789055_cont_9to1_m_1331_6_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- Every whole-buffer load and store of the body starts at the origin. -/
theorem hz : (![0, 0] : Fin 2 → Nat) = fun _ => 0 := funext fun a => by fin_cases a <;> rfl

/-- The scratch after the first point: the feature transform of the resident blocks of x and W. -/
theorem scratch_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : cond0_0 i) (x0 : Vec F S10000x128 .f32) (x1 : Vec F S400x10000 .f32) (x2 : Vec F S128x128 .f32) (x3 : Vec F S1x128 .f32) (x4 : Vec F S1x128 .f32) :
    sout0_A_0 c i arg1 harg1 arg2 harg2 arg3 harg3 arg4 harg4 arg5 harg5 arg6 harg6 arg7 harg7 hc0 x0 x1 x2 x3 x4 = k0_pay1 x0 x2 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg3.read_unread, View.ld_unit_zero (S := S10000x128) hz,
    View.ld_unit_zero (S := S128x128) hz]

/-- The output block at the first point: the epilogue over the transform just stored, read back from the scratch. -/
theorem out_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : cond0_0 i) (x0 : Vec F S10000x128 .f32) (x1 : Vec F S400x10000 .f32) (x2 : Vec F S128x128 .f32) (x3 : Vec F S1x128 .f32) (x4 : Vec F S1x128 .f32) :
    out0_A_5 c i arg1 harg1 arg2 harg2 arg3 harg3 arg4 harg4 arg5 harg5 arg6 harg6 arg7 harg7 hc0 x0 x1 x2 x3 x4 = k0_pay2 x1 (k0_pay1 x0 x2) x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S10000x128) hz, View.ld_unit_zero (S := S128x128) hz, View.ld_unit_zero (S := S400x10000) hz,
    View.ld_unit_zero (S := S1x128) hz, View.readCov_unit_zero (S := S10000x128) _ hz]

/-- The output block at a later point: the epilogue over what the scratch held when the point began. -/
theorem out_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : ¬cond0_0 i) (x0 : Vec F S10000x128 .f32) (x1 : Vec F S400x10000 .f32) (x2 : Vec F S128x128 .f32) (x3 : Vec F S1x128 .f32) (x4 : Vec F S1x128 .f32) (xs0 : Vec F S10000x128 .bf16) :
    out0_B_5 c i arg1 harg1 arg2 harg2 arg3 harg3 arg4 harg4 arg5 harg5 arg6 harg6 arg7 harg7 hc0 x0 x1 x2 x3 x4 xs0 = k0_pay2 x1 xs0 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  rw [View.canon_unit_zero hz]
  simp only [View.readAt_eq_ld, harg2.read_unread, harg4.read_unread, harg5.read_unread, harg7.read_unread,
    View.ld_unit_zero (S := S10000x128) hz, View.ld_unit_zero (S := S400x10000) hz, View.ld_unit_zero (S := S1x128) hz]

end Cert.KernelIdeal.Pieces

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.PayAt.lean ====
/-
  The body's two stored values read at an index, on the extended reals.

  The first, stored into the scratch, is the product of the resident block of x with the block of W: entry (k, j) is
  the sum over l of x (k, l) · W (l, j); narrowing it to the scratch's format changes nothing on the extended reals.
  The second, stored into the output block, multiplies the point's 400 rows of adj by the scratch, scales column j by
  the one-row scale block, adds the one-row shift block and takes the maximum with zero.
-/
import proofs.«132338_g53609781789055_cont_9to1_m_1331_6_alg».proof.Proof.Gen.KernelIdeal.Skeleton
import proofs.«132338_g53609781789055_cont_9to1_m_1331_6_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PayAt

open Cert.KernelIdeal Cert.KernelIdeal.Gen

/-- A rows-by-columns product into a zero accumulator read at (r, j), for any dimension record that is the plain one. -/
theorem matmul_at {M K N : ℕ} {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant (F := Ideal) ⟨2, ![M, N]⟩ .f32 0x00000000#32) (ix2 p j) = ∑ k : Fin K, l (ix2 p k) * r (ix2 k j) := by
  subst hd
  exact Cert.LibDense.matmul_plain_zero_apply prec l r p j

/-- The value stored into the scratch, at (k, j): the feature transform's entry. -/
theorem transform_at (x0 : Vec Ideal S10000x128 .f32) (x2 : Vec Ideal S128x128 .f32) (k : Fin 10000) (j : Fin 128) :
    k0_pay1 (F := Ideal) x0 x2 (ix2 k j) = ∑ l : Fin 128, x0 (ix2 k l) * x2 (ix2 l j) := by
  unfold k0_pay1
  rw [shapeCast_self]
  exact matmul_at (φ₁ := .f32) (φ₂ := .f32) dot_S10000x128_S128x128_S10000x128_1_0_0_1_n_n rfl none x0 x2 k j

/-- The value stored into the output block, at (p, j): the block's row p of adj against column j of the scratch,
    scaled, shifted, and the maximum with zero. -/
theorem epilogue_at (x1 : Vec Ideal S400x10000 .f32) (xs : Vec Ideal S10000x128 .bf16) (x3 x4 : Vec Ideal S1x128 .f32)
    (p : Fin 400) (j : Fin 128) :
    k0_pay2 (F := Ideal) x1 xs x3 x4 (ix2 p j)
      = max ((∑ k : Fin 10000, x1 (ix2 p k) * xs (ix2 k j)) * x3 (ix2 (0 : Fin 1) j) + x4 (ix2 (0 : Fin 1) j)) 0 := by
  unfold k0_pay2
  rw [shapeCast_self, shapeCast_self]
  show max (matmul dot_S400x10000_S10000x128_S400x128_1_0_0_1_n_n none (truncf .bf16 x1 bitsLt_bf16_f32) xs
        (constant (F := Ideal) S400x128 .f32 0x00000000#32) (ix2 p j)
      * broadcastTo S400x128 x3 broadcasts_S1x128_S400x128 (ix2 p j) + broadcastTo S400x128 x4 broadcasts_S1x128_S400x128 (ix2 p j))
      (Ideal.ofBits .f32 0x00000000#32) = _
  rw [matmul_at (φ₁ := .bf16) (φ₂ := .bf16) dot_S400x10000_S10000x128_S400x128_1_0_0_1_n_n rfl, broadcastTo_1b_ab_apply, broadcastTo_1b_ab_apply,
    Ideal.ofBits_zero_f32]
  rfl

end Cert.KernelIdeal.PayAt

end
-- ==== Proof.Blocks.lean ====
/-
  The kernel's input blocks, read off the argument arrays.

  Five operands are staged. The blocks of x, W, the scale row and the shift row are the whole arrays at every grid
  point (their block index is (0, 0) throughout); the block of adj at point t is rows 400·t … 400·t + 399. The scale
  and shift rows are not arguments: the host computes them before the launch, the scale as γ divided by the square
  root of the literal laid along the vector, reshaped to one row, the shift as b times that scale plus β, reshaped
  likewise. Read at column j they are the layer's scale and shift at j.
-/
import proofs.«132338_g53609781789055_cont_9to1_m_1331_6_alg».proof.Proof.Gen.KernelIdeal.Frame
import proofs.«132338_g53609781789055_cont_9to1_m_1331_6_alg».proof.Proof.Layer
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Blocks

open Cert.KernelIdeal Cert.KernelIdeal.Gen

variable (m : (ℓ : Loc nD τ sig) → Buf (Elt Ideal) ℓ)

/-- The block of x at a point. -/
abbrev xblk (c : Dev nD) (t : Fin cfg0.N) : Vec Ideal S10000x128 .f32 := iblk m c 0 t
/-- The block of adj at a point: 400 rows. -/
abbrev ablk (c : Dev nD) (t : Fin cfg0.N) : Vec Ideal S400x10000 .f32 := iblk m c 1 t
/-- The block of W at a point. -/
abbrev wblk (c : Dev nD) (t : Fin cfg0.N) : Vec Ideal S128x128 .f32 := iblk m c 2 t
/-- The scale row at a point. -/
abbrev sblk (c : Dev nD) (t : Fin cfg0.N) : Vec Ideal S1x128 .f32 := iblk m c 3 t
/-- The shift row at a point. -/
abbrev hblk (c : Dev nD) (t : Fin cfg0.N) : Vec Ideal S1x128 .f32 := iblk m c 4 t

/-- The block indices over the grid: adj's and the output's first index is the point, every other index is zero. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of x is x. -/
theorem xblk_at (c : Dev nD) (t : Fin cfg0.N) (k : Fin 10000) (l : Fin 128) :
    xblk m c t (ix2 k l) = m ((c : Thread nD τ).loc main_arg0) (ix2 k l) := by
  obtain ⟨e0, e1, -⟩ := idx_facts t
  refine Eq.trans ?_ (congrFun (V_main_arg0 m c) (ix2 k l))
  show V m c main_arg0 (((cfg0.win 0).blk t).view.emb (ix2 k l)) = V m c main_arg0 (ix2 k l)
  refine congrArg (V m c main_arg0) (funext fun a => Fin.ext ?_)
  match a with
  | ⟨0, _⟩ => show win0_0.index t (0 : Fin 2) * 10000 + 1 * k.val = k.val; omega
  | ⟨1, _⟩ => show win0_0.index t (1 : Fin 2) * 128 + 1 * l.val = l.val; omega

/-- The block of adj at point t, row p, is adj's row 400·t + p. -/
theorem ablk_at (c : Dev nD) (t : Fin cfg0.N) (p : Fin 400) (k : Fin 10000) (r : Fin 10000) (hr : r.val = 400 * t.val + p.val) :
    ablk m c t (ix2 p k) = m ((c : Thread nD τ).loc main_arg1) (ix2 r k) := by
  obtain ⟨-, -, e2, e3, -⟩ := idx_facts t
  refine Eq.trans ?_ (congrFun (V_main_arg1 m c) (ix2 r k))
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 400 + 1 * p.val = r.val; omega
  | ⟨1, _⟩ => show win0_1.index t (1 : Fin 2) * 10000 + 1 * k.val = k.val; omega

/-- The block of W is W. -/
theorem wblk_at (c : Dev nD) (t : Fin cfg0.N) (l : Fin 128) (j : Fin 128) :
    wblk m c t (ix2 l j) = m ((c : Thread nD τ).loc main_arg2) (ix2 l j) := by
  obtain ⟨-, -, -, -, e4, e5, -⟩ := idx_facts t
  refine Eq.trans ?_ (congrFun (V_main_arg2 m c) (ix2 l j))
  show V m c main_arg2 (((cfg0.win 2).blk t).view.emb (ix2 l j)) = V m c main_arg2 (ix2 l j)
  refine congrArg (V m c main_arg2) (funext fun a => Fin.ext ?_)
  match a with
  | ⟨0, _⟩ => show win0_2.index t (0 : Fin 2) * 128 + 1 * l.val = l.val; omega
  | ⟨1, _⟩ => show win0_2.index t (1 : Fin 2) * 128 + 1 * j.val = j.val; omega

/-- The scale row as the host leaves it before the launch. -/
theorem scale_row (c : Dev nD) : (V m c main_v4 : S1x128.Idx → EReal)
    = shapeCast S1x128 (Host.divf (m ((c : Thread nD τ).loc main_arg4)) (broadcastInDim S128 ![] bcast_S_S128 (id (Host.sqrt (constant (F := Ideal) S_ .f32 0x3F800054#32))))) shapeCasts_S128_S1x128 := by
  dsimp only [V, hostOps0]; after_results; rfl

/-- The shift row as the host leaves it before the launch. -/
theorem shift_row (c : Dev nD) : (V m c main_v8 : S1x128.Idx → EReal)
    = shapeCast S1x128 (addf (mulf (m ((c : Thread nD τ).loc main_arg3)) (shapeCast S128 (shapeCast S1x128 (Host.divf (m ((c : Thread nD τ).loc main_arg4)) (broadcastInDim S128 ![] bcast_S_S128 (id (Host.sqrt (constant (F := Ideal) S_ .f32 0x3F800054#32))))) shapeCasts_S128_S1x128) shapeCasts_S1x128_S128)) (m ((c : Thread nD τ).loc main_arg5))) shapeCasts_S128_S1x128 := by
  dsimp only [V, hostOps0]; after_results; rfl

/-- γ divided by the normaliser laid along the vector, read at j. -/
theorem scale_vec_at (c : Dev nD) (j : Fin 128) :
    (Host.divf (m ((c : Thread nD τ).loc main_arg4)) (broadcastInDim S128 ![] bcast_S_S128 (id (Host.sqrt (constant (F := Ideal) S_ .f32 0x3F800054#32))))) (ix1 j) = Cert.Gcn.scale (m ((c : Thread nD τ).loc main_arg4)) j := by
  show Ideal.div (m ((c : Thread nD τ).loc main_arg4) (ix1 j)) (broadcastInDim S128 ![] bcast_S_S128 (id (Host.sqrt (constant (F := Ideal) S_ .f32 0x3F800054#32))) (ix1 j)) = _
  rw [broadcastInDim_apply ![] bcast_S_S128 _ (ix1 j) ix0 (fun a => a.elim0)]
  rfl

/-- b times a scale vector plus β, read at j, when the scale vector at j is the layer's scale. -/
theorem shift_vec_at (B G Bt sc : FVec Ideal S128 .f32) (j : Fin 128) (hs : sc (ix1 j) = Cert.Gcn.scale G j) :
    addf (mulf B sc) Bt (ix1 j) = Cert.Gcn.shift B G Bt j := by
  show B (ix1 j) * sc (ix1 j) + Bt (ix1 j) = _
  rw [hs]
  rfl

/-- The scale block at column j is the layer's scale. -/
theorem sblk_at (c : Dev nD) (t : Fin cfg0.N) (j : Fin 128) :
    sblk m c t (ix2 (0 : Fin 1) j) = Cert.Gcn.scale (m ((c : Thread nD τ).loc main_arg4)) j := by
  obtain ⟨-, -, -, -, -, -, e6, e7, -⟩ := idx_facts t
  have hemb : ((cfg0.win 3).blk t).view.emb (ix2 (0 : Fin 1) j) = ix2 (0 : Fin 1) j := funext fun a => Fin.ext (by
    match a with
    | ⟨0, _⟩ => show win0_3.index t (0 : Fin 2) * 1 + 1 * 0 = 0; omega
    | ⟨1, _⟩ => show win0_3.index t (1 : Fin 2) * 128 + 1 * j.val = j.val; omega)
  show V m c main_v4 (((cfg0.win 3).blk t).view.emb (ix2 (0 : Fin 1) j)) = _
  rw [hemb, scale_row, shapeCast_a_1a_apply]
  exact scale_vec_at m c j

/-- The shift block at column j is the layer's shift. -/
theorem hblk_at (c : Dev nD) (t : Fin cfg0.N) (j : Fin 128) :
    hblk m c t (ix2 (0 : Fin 1) j) = Cert.Gcn.shift (m ((c : Thread nD τ).loc main_arg3)) (m ((c : Thread nD τ).loc main_arg4)) (m ((c : Thread nD τ).loc main_arg5)) j := by
  obtain ⟨-, -, -, -, -, -, -, -, e8, e9, -⟩ := idx_facts t
  have hemb : ((cfg0.win 4).blk t).view.emb (ix2 (0 : Fin 1) j) = ix2 (0 : Fin 1) j := funext fun a => Fin.ext (by
    match a with
    | ⟨0, _⟩ => show win0_4.index t (0 : Fin 2) * 1 + 1 * 0 = 0; omega
    | ⟨1, _⟩ => show win0_4.index t (1 : Fin 2) * 128 + 1 * j.val = j.val; omega)
  show V m c main_v8 (((cfg0.win 4).blk t).view.emb (ix2 (0 : Fin 1) j)) = _
  rw [hemb, shift_row, shapeCast_a_1a_apply, shapeCast_shapeCast]
  exact shift_vec_at _ _ _ _ j (scale_vec_at m c j)

end Cert.KernelIdeal.Blocks

end
-- ==== Proof.Result.lean ====
/-
  The kernel's output array, whole.

  The scratch is written once, at the first grid point, with the feature transform of the resident blocks, and no later
  point stores into it: so after every point it holds that same transform (induction on the point). The output block
  at point t is therefore the epilogue over the point's 400 rows of adj and that transform. Entry (p, j) of block t
  lies at row 400·t + p of the array, the 25 blocks tile the 10000 rows (row r is in block r / 400), and the blocks
  are restrictions of one function of the six argument arrays: the layer.
-/
import proofs.«132338_g53609781789055_cont_9to1_m_1331_6_alg».proof.Proof.Gen.KernelIdeal.Value
import proofs.«132338_g53609781789055_cont_9to1_m_1331_6_alg».proof.Proof.Pieces
import proofs.«132338_g53609781789055_cont_9to1_m_1331_6_alg».proof.Proof.PayAt
import proofs.«132338_g53609781789055_cont_9to1_m_1331_6_alg».proof.Proof.Blocks
import proofs.«132338_g53609781789055_cont_9to1_m_1331_6_alg».proof.Proof.Layer

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks

variable (m : (ℓ : Loc nD τ sig) → Buf (Elt Ideal) ℓ) (ρ : Dev nD → PrngReg)

/-- The first grid point. -/
abbrev first : Fin cfg0.N := ⟨0, by rw [show cfg0.N = 25 from N_0]; decide⟩

/-- What the scratch holds from the first point on: the transform of the blocks of x and W staged there. -/
def held (c : Dev nD) : Vec Ideal S10000x128 .bf16 := k0_pay1 (F := Ideal) (xblk m c first) (wblk m c first)

/-- The scratch after any point is what the first point stored. -/
theorem scratch_eq (c : Dev nD) : ∀ (n : ℕ) (h : n < cfg0.N), (outsAt0 m c n h).2 = held m c
  | 0, h => by
    rw [outsAt0_A m c ⟨0, h⟩ rfl]
    dsimp only
    exact Pieces.scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- The output block at any point: the epilogue over the point's rows of adj and the held transform. -/
theorem outblk_eq (c : Dev nD) (t : Fin cfg0.N) :
    (outsAt0 m c t.val t.isLt).1 = k0_pay2 (F := Ideal) (ablk m c t) (held m c) (sblk m c t) (hblk m c t) := by
  have hN : cfg0.N = 25 := N_0
  by_cases h0 : t.val % 25 = 0
  · rw [outsAt0_A m c t h0]
    dsimp only
    refine (Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans ?_
    have ht : t = first := Fin.ext (by have := t.isLt; show t.val = 0; omega)
    subst ht
    rfl
  · rw [outsAt0_B m c t h0]
    dsimp only
    refine (Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2).trans ?_
    rw [scratch_eq m c (t.val - 1) _]

/-- The held transform at (k, j) is the layer's feature transform of the arguments. -/
theorem held_at (c : Dev nD) (k : Fin 10000) (j : Fin 128) :
    held m c (ix2 k j) = Cert.Gcn.support (m ((c : Thread nD τ).loc main_arg0)) (m ((c : Thread nD τ).loc main_arg2)) k j := by
  unfold held
  rw [PayAt.transform_at]
  unfold Cert.Gcn.support
  exact Finset.sum_congr rfl fun l _ => by rw [xblk_at, wblk_at]

/-- Two arrays of 400 × 128 extended reals that agree at every (p, j) are equal. -/
theorem ext_block (f g : S400x128.Idx → EReal) (h : ∀ (p : Fin 400) (j : Fin 128), f (ix2 p j) = g (ix2 p j)) : f = g :=
  funext fun y => by rw [eq_ix2 y]; exact h _ _

/-- The layer of the six arguments, as contents of the output array. -/
abbrev layer (c : Dev nD) : S10000x128.Idx → EReal := Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point t writes back is block t of the layer. -/
theorem flushed_eq (c : Dev nD) (t : Fin cfg0.N) :
    (dats m 0 c).flushed 5 t = ((cfg0.win 5).blk t).view.read (Elt Ideal) (layer m c) := by
  have hN : cfg0.N = 25 := N_0
  obtain ⟨-, -, -, -, -, -, -, -, -, -, e10, e11⟩ := idx_facts t
  rw [Cert.KernelIdeal.Value.flushed5, outblk_eq]
  refine ext_block _ _ fun p j => ?_
  have hr : 400 * t.val + p.val < 10000 := by have := t.isLt; have := p.isLt; omega
  have hemb : ((cfg0.win 5).blk t).view.emb (ix2 p j) = ix2 (⟨400 * t.val + p.val, hr⟩ : Fin 10000) j :=
    funext fun a => Fin.ext (by
      match a with
      | ⟨0, _⟩ => show win0_5.index t (0 : Fin 2) * 400 + 1 * p.val = 400 * t.val + p.val; omega
      | ⟨1, _⟩ => show win0_5.index t (1 : Fin 2) * 128 + 1 * j.val = j.val; omega)
  show k0_pay2 (F := Ideal) (ablk m c t) (held m c) (sblk m c t) (hblk m c t) (ix2 p j)
    = layer m c (((cfg0.win 5).blk t).view.emb (ix2 p j))
  rw [hemb, PayAt.epilogue_at, sblk_at, hblk_at]
  show _ = Cert.Gcn.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨400 * t.val + p.val, hr⟩ j
  unfold Cert.Gcn.outAt Cert.Gcn.agg
  congr 3
  exact Finset.sum_congr rfl fun k _ => by rw [ablk_at m c t p k ⟨400 * t.val + p.val, hr⟩ rfl, held_at]

/-- An index of the array is in point t's block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v9).slice (win0_5.rect t)).set ↔ _
  rw [View.set_slice_whole, Rect.mem_set_unit]
  exact Iff.rfl

/-- The output array after the run is the layer: row r lies in block r / 400. -/
theorem final (c : Dev nD) : (dats m 0 c).arrAt 5 cfg0.N = layer m c :=
  (dats m 0 c).arrAt_eq_of_cover 5 (layer m c) (fun t _ => flushed_eq m c t) fun i => by
    have hN : cfg0.N = 25 := N_0
    have hi0 : (i 0).val < 10000 := idx2_lt0 i
    have hi1 : (i 1).val < 128 := (i 1).isLt
    let t : Fin cfg0.N := ⟨(i 0).val / 400, by omega⟩
    obtain ⟨-, -, -, -, -, -, -, -, -, -, e10, e11⟩ := idx_facts t
    have e10' : win0_5.index t (0 : Fin 2) = (i 0).val / 400 := e10
    refine ⟨t, flush0_5 t, ?_⟩
    rw [mem_blk]
    intro a
    match a with
    | ⟨0, _⟩ => show win0_5.index t (0 : Fin 2) * 400 ≤ (i 0).val ∧ (i 0).val < win0_5.index t (0 : Fin 2) * 400 + 400; omega
    | ⟨1, _⟩ => show win0_5.index t (1 : Fin 2) * 128 ≤ (i 1).val ∧ (i 1).val < win0_5.index t (1 : Fin 2) * 128 + 128; omega

/-- Every weakly fair execution of the kernel's program ends with the output array at the layer of the six arguments
    and the arguments as they were. -/
theorem run : θ_run defs (onTc (τ := τ) (main (F := Ideal))) ⟨m, fun _ => 0, ρ⟩ fun r => ∀ c : Dev nD,
      r.2.mem ((c : Thread nD τ).loc main_v9) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Whole

end
-- ==== Proof.lean ====
/-
  One graph-convolution layer: a fused kernel against its reference.

  Both programs compute, for a 10000 × 128 feature matrix x, a 10000 × 10000 adjacency matrix adj, a 128 × 128 weight
  matrix W and three 128-vectors b, γ, β, the array whose entry (i, j) is the maximum with zero of an affine function of
  a(i, j) = ∑ₖ adj(i, k) · ∑ₗ x(k, l) · W(l, j). With σ the square root of the single-precision number nearest
  1.00001, the reference forms ((a + b) − 0) / σ · γ + β, while the kernel precomputes the scale γ / σ and the shift
  b · (γ / σ) + β on the host and forms a · scale + shift inside a grid of 25 row blocks, keeping x · W in a scratch
  buffer that is filled at the first block and only read afterwards.

  On the extended reals the two expressions agree when every argument entry is a real number (distributivity, and
  division by the nonzero real σ as multiplication by its reciprocal); the precondition says exactly that. The narrowing
  of x · W and of adj to a shorter float format inside the kernel is the identity on the extended reals, and a matrix
  product accumulated into a zero array is the same sum as the host's product.

  The three frames are the generated ones (the reference's is its generated run with the value dropped); the kernel's
  idealisation rewrote nothing, so there is nothing to preserve; the value claim sets the kernel's output array, read
  off its run block by block, beside the reference's result, read operation by operation at an index.
-/
import proofs.«132338_g53609781789055_cont_9to1_m_1331_6_alg».proof.Defs
import proofs.«132338_g53609781789055_cont_9to1_m_1331_6_alg».proof.Proof.Gen.Kernel
import proofs.«132338_g53609781789055_cont_9to1_m_1331_6_alg».proof.Proof.Gen.Kernel.Skeleton
import proofs.«132338_g53609781789055_cont_9to1_m_1331_6_alg».proof.Proof.Gen.Kernel.Launch
import proofs.«132338_g53609781789055_cont_9to1_m_1331_6_alg».proof.Proof.Gen.Kernel.Points
import proofs.«132338_g53609781789055_cont_9to1_m_1331_6_alg».proof.Proof.Gen.Kernel.Frame
import proofs.«132338_g53609781789055_cont_9to1_m_1331_6_alg».proof.Proof.Gen.KernelIdeal
import proofs.«132338_g53609781789055_cont_9to1_m_1331_6_alg».proof.Proof.Gen.KernelIdeal.Skeleton
import proofs.«132338_g53609781789055_cont_9to1_m_1331_6_alg».proof.Proof.Gen.KernelIdeal.Launch
import proofs.«132338_g53609781789055_cont_9to1_m_1331_6_alg».proof.Proof.Gen.KernelIdeal.Points
import proofs.«132338_g53609781789055_cont_9to1_m_1331_6_alg».proof.Proof.Gen.KernelIdeal.Frame
import proofs.«132338_g53609781789055_cont_9to1_m_1331_6_alg».proof.Proof.Gen.ReferenceIdeal
import proofs.«132338_g53609781789055_cont_9to1_m_1331_6_alg».proof.Proof.Gen.Pre_finite_inputs
import proofs.«132338_g53609781789055_cont_9to1_m_1331_6_alg».proof.Proof.Gen.KernelIdeal.Value
import proofs.«132338_g53609781789055_cont_9to1_m_1331_6_alg».proof.Proof.Gen.ReferenceIdeal.Run
import proofs.«132338_g53609781789055_cont_9to1_m_1331_6_alg».proof.Proof.Gen.ReferenceIdeal.Read
import proofs.«132338_g53609781789055_cont_9to1_m_1331_6_alg».proof.Proof.Layer
import proofs.«132338_g53609781789055_cont_9to1_m_1331_6_alg».proof.Proof.HostAt
import proofs.«132338_g53609781789055_cont_9to1_m_1331_6_alg».proof.Proof.Finite
import proofs.«132338_g53609781789055_cont_9to1_m_1331_6_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Two rank-2 arrays of extended reals that agree at every (i, j) are equal. -/
theorem ext_rows {n0 n1 : ℕ} (f g : (⟨2, ![n0, n1]⟩ : Shape).Idx → EReal)
    (h : ∀ (i : Fin n0) (j : Fin n1), f (ValueIdx.ix2 i j) = g (ValueIdx.ix2 i j)) : f = g :=
  funext fun y => by rw [ValueIdx.eq_ix2 y]; exact h _ _

/-- The kernel's output array ends at the layer of its six arguments; the reference's result is, entry by entry, the
    layer in the reference's spelling of arguments that agree with the kernel's; under the precondition the entries are
    real numbers and the two spellings are one number. -/
theorem algebraic : Cert.algebraic_KernelIdeal_ReferenceIdeal := by
  intro m ρ m' ρ' hpre hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨r0, r1, r2, r3, r4, r5⟩ := Cert.Gcn.Finite.reals_of_pre _ _ _ _ _ _ (hpre c)
  rw [a0, a1, a2, a3, a4, a5, Cert.ReferenceIdeal.Read.val_main_v18_eq]
  refine ext_rows _ _ fun i j => ?_
  rw [Cert.Gcn.Host.result_at, Cert.Gcn.outAtRef_eq _ _ _ _ _ _ r0 r1 r2 r3 r4 r5]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
